-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2048 : Shape := ⟨2, ![50000, 2048]⟩
abbrev S128x50000 : Shape := ⟨2, ![128, 50000]⟩
abbrev S_ : Shape := ⟨0, ![]⟩

class Facts : Prop where
  bcast_S_S50000x2048 : S_.BroadcastsInDim S50000x2048 (![] : Fin 0 → Fin S50000x2048.rank)
  reducesTo_S50000x2048_S_d0_1 : S50000x2048.ReducesTo [0, 1] S_
  h_S_ : 0 < S_.numel
  bcast_S_S128x50000 : S_.BroadcastsInDim S128x50000 (![] : Fin 0 → Fin S128x50000.rank)
  reducesTo_S128x50000_S_d0_1 : S128x50000.ReducesTo [0, 1] S_

variable [Facts]

def fn {F : FTy → Type} [FloatOps F] (main_arg0 : FVec F S50000x2048 .f32) (main_arg1 : FVec F S128x50000 .f32) : IVec S_ 1 :=
  let main_v0 : FVec F S50000x2048 .f32 := Host.absf main_arg0
  let main_cst : FVec F S_ .f32 := constant S_ .f32 0x7F800000#32
  let main_v1 : FVec F S50000x2048 .f32 := broadcastInDim S50000x2048 ![] bcast_S_S50000x2048 main_cst
  let main_v2 : IVec S50000x2048 1 := cmpf .olt main_v0 main_v1
  let main_c : IVec S_ 1 := constantI S_ 1 1#1
  let main_v3 : IVec S_ 1 := (fun x v => Host.reduce IntOp.andi x v reducesTo_S50000x2048_S_d0_1 h_S_) main_v2 main_c
  let main_v4 : FVec F S128x50000 .f32 := Host.absf main_arg1
  let main_cst_0 : FVec F S_ .f32 := constant S_ .f32 0x7F800000#32
  let main_v5 : FVec F S128x50000 .f32 := broadcastInDim S128x50000 ![] bcast_S_S128x50000 main_cst_0
  let main_v6 : IVec S128x50000 1 := cmpf .olt main_v4 main_v5
  let main_c_1 : IVec S_ 1 := constantI S_ 1 1#1
  let main_v7 : IVec S_ 1 := (fun x v => Host.reduce IntOp.andi x v reducesTo_S128x50000_S_d0_1 h_S_) main_v6 main_c_1
  let main_v8 : IVec S_ 1 := andi main_v3 main_v7
  main_v8
-- ==== Kernel.lean ====
abbrev S50000x2048 : Shape := ⟨2, ![50000, 2048]⟩
abbrev S128x50000 : Shape := ⟨2, ![128, 50000]⟩
abbrev S_ : Shape := ⟨0, ![]⟩
abbrev S128x50176 : Shape := ⟨2, ![128, 50176]⟩
abbrev S50176x2048 : Shape := ⟨2, ![50176, 2048]⟩
abbrev S128x2048 : Shape := ⟨2, ![128, 2048]⟩
abbrev S128x1024 : Shape := ⟨2, ![128, 1024]⟩
abbrev S1024x1024 : Shape := ⟨2, ![1024, 1024]⟩
abbrev S2048x128 : Shape := ⟨2, ![2048, 128]⟩

abbrev nBuf : Space → Nat
  | .hbm => 10
  | .vmem => 7
  | .smem => 0
  | _ => 0

abbrev bufTy : (tb : Table) → Fin (tcTables nBuf tb) → BufTy
  | .hbm, ⟨0, _⟩ => ⟨S50000x2048, .f32⟩
  | .hbm, ⟨1, _⟩ => ⟨S128x50000, .f32⟩
  | .hbm, ⟨2, _⟩ => ⟨S_, .i32⟩
  | .hbm, ⟨3, _⟩ => ⟨S_, .f32⟩
  | .hbm, ⟨4, _⟩ => ⟨S128x50176, .f32⟩
  | .hbm, ⟨5, _⟩ => ⟨S_, .i32⟩
  | .hbm, ⟨6, _⟩ => ⟨S_, .f32⟩
  | .hbm, ⟨7, _⟩ => ⟨S50176x2048, .f32⟩
  | .hbm, ⟨8, _⟩ => ⟨S128x2048, .f32⟩
  | .hbm, ⟨9, _⟩ => ⟨S2048x128, .f32⟩
  | .local _ .vmem, ⟨0, _⟩ => ⟨S128x1024, .f32⟩
  | .local _ .vmem, ⟨1, _⟩ => ⟨S128x1024, .f32⟩
  | .local _ .vmem, ⟨2, _⟩ => ⟨S1024x1024, .f32⟩
  | .local _ .vmem, ⟨3, _⟩ => ⟨S1024x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S50000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 49], ![false, false]⟩

def k0_cond2 (i : grid0.Coords) : BitVec 1 :=
  let arg1 : BitVec 32 := BitVec.ofNat 32 (i 1).val
  let c48_i32 : BitVec 32 := 48#32
  let v15 : BitVec 1 := Scalar.cmpi .eq arg1 c48_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  pads_S128x50000_S128x50176_000_01760 : S128x50000.Pads (![0, 0] : Fin 2 → Nat) ![0, 176] ![0, 0] S128x50176
  h_S_ : 0 < S_.numel
  pads_S50000x2048_S50176x2048_01760_000 : S50000x2048.Pads (![0, 0] : Fin 2 → Nat) ![176, 0] ![0, 0] S50176x2048
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S128x2048_S2048x128_1_0 : S128x2048.Transposes [1, 0] S2048x128
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S128x50176.size a
  hwx0_0 : ∀ i : grid0.Coords, EltTy.bits .f32 = 32 ∨ (Rect.block (s := S128x50176) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S50176x2048.size a
  hwx0_1 : ∀ i : grid0.Coords, EltTy.bits .f32 = 32 ∨ (Rect.block (s := S50176x2048) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x2048.size a
  hwx0_2 : ∀ i : grid0.Coords, EltTy.bits .f32 = 32 ∨ (Rect.block (s := S128x2048) S128x1024.size (cc0_transform_2 i) (hinb0_2 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_v0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S50000x2048 : Shape := ⟨2, ![50000, 2048]⟩
abbrev S128x50000 : Shape := ⟨2, ![128, 50000]⟩
abbrev S128x2048 : Shape := ⟨2, ![128, 2048]⟩
abbrev S2048x128 : Shape := ⟨2, ![2048, 128]⟩

abbrev nBuf : Space → Nat
  | .hbm => 4
  | .vmem => 0
  | .smem => 0
  | _ => 0

abbrev bufTy : (tb : Table) → Fin (tcTables nBuf tb) → BufTy
  | .hbm, ⟨0, _⟩ => ⟨S50000x2048, .f32⟩
  | .hbm, ⟨1, _⟩ => ⟨S128x50000, .f32⟩
  | .hbm, ⟨2, _⟩ => ⟨S128x2048, .f32⟩
  | .hbm, ⟨3, _⟩ => ⟨S2048x128, .f32⟩
  | _, _ => ⟨S50000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S128x2048_S2048x128_1_0 : S128x2048.Transposes [1, 0] S2048x128
  dot_S128x50000_S50000x2048_S128x2048_1_0_0_1_n_n_wf : DotDims.WF S128x50000 S50000x2048 S128x2048 [1] [0] [0] [1] [] []

variable [Facts₀]

def dot_S128x50000_S50000x2048_S128x2048_1_0_0_1_n_n : DotDims S128x50000 S50000x2048 S128x2048 where
  lhsContracting := [1]
  rhsContracting := [0]
  lhsNonContracting := [0]
  rhsNonContracting := [1]
  lhsBatch := []
  rhsBatch := []
  wf := dot_S128x50000_S50000x2048_S128x2048_1_0_0_1_n_n_wf

class Facts : Prop extends Facts₀ where

variable [Facts]
-- ==== Proof.TileStep.lean ====
/-
  What one grid point leaves in the accumulator and in the output block, as values.

  The body at a grid point (n, k) loads a [128, 1024] tile of the zero-extended table and a [1024, 1024] tile of
  the zero-extended one-hot matrix and adds their product to a [128, 1024] accumulator that lives across the
  49 points of a column block; the accumulator is first set to zero when k = 0, and copied to the output block
  when k = 48.  Whatever the control case, the accumulator ends the point holding "what it held + this tile's
  product", where at k = 0 what it held is the zero block just stored; and at k = 48 the output block is a copy of
  that same value.  Stated for any reading of the float operations.
-/
import proofs.«141715_j66949950210384_1_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)

namespace Cert.KernelIdeal.Acc
open Cert.KernelIdeal Cert.KernelIdeal.Gen
variable {F : FTy → Type} [FloatOps F]

/-- Every access of the body starts at the origin of its buffer. -/
theorem origin : (![0, 0] : Fin 2 → Nat) = fun _ => 0 := funext fun a => by fin_cases a <;> rfl

/-- First point of a column block (k = 0): the accumulator is zeroed, read back, and ends at zero plus the
    tile product. -/
theorem acc_first (c : Dev nD) (i : grid0.Coords) (a2 : Memref sig .tc .vmem S128x1024 .f32) (h2 : a2.IsWhole)
    (a3 : Memref sig .tc .vmem S1024x1024 .f32) (h3 : a3.IsWhole) (a4 : Memref sig .tc .vmem S128x1024 .f32) (h4 : a4.IsWhole)
    (a5 : Memref sig .tc .vmem S128x1024 .f32) (h5 : a5.IsWhole) (hc0 : cond0_0 i) (hc1 : ¬cond0_1 i)
    (x0 : Vec F S128x1024 .f32) (x1 : Vec F S1024x1024 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S128x1024) origin, View.readCov_unit_zero (S := S128x1024) _ origin]
  simp only [View.readAt_eq_ld, h2.read_unread, h3.read_unread, View.ld_unit_zero (S := S128x1024) origin, View.ld_unit_zero (S := S1024x1024) origin]

/-- A middle point (0 < k < 48): the accumulator ends at what the point before left plus the tile product. -/
theorem acc_middle (c : Dev nD) (i : grid0.Coords) (a2 : Memref sig .tc .vmem S128x1024 .f32) (h2 : a2.IsWhole)
    (a3 : Memref sig .tc .vmem S1024x1024 .f32) (h3 : a3.IsWhole) (a4 : Memref sig .tc .vmem S128x1024 .f32) (h4 : a4.IsWhole)
    (a5 : Memref sig .tc .vmem S128x1024 .f32) (h5 : a5.IsWhole) (hc0 : ¬cond0_0 i) (hc1 : ¬cond0_1 i)
    (x0 : Vec F S128x1024 .f32) (x1 : Vec F S1024x1024 .f32) (xs : Vec F S128x1024 .f32) :
    sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero origin]
  simp only [View.readAt_eq_ld, h2.read_unread, h3.read_unread, h5.read_unread, View.ld_unit_zero (S := S128x1024) origin, View.ld_unit_zero (S := S1024x1024) origin]

/-- The last point (k = 48): the accumulator ends at the same sum, -/
theorem acc_last (c : Dev nD) (i : grid0.Coords) (a2 : Memref sig .tc .vmem S128x1024 .f32) (h2 : a2.IsWhole)
    (a3 : Memref sig .tc .vmem S1024x1024 .f32) (h3 : a3.IsWhole) (a4 : Memref sig .tc .vmem S128x1024 .f32) (h4 : a4.IsWhole)
    (a5 : Memref sig .tc .vmem S128x1024 .f32) (h5 : a5.IsWhole) (hc0 : ¬cond0_0 i) (hc1 : cond0_1 i)
    (x0 : Vec F S128x1024 .f32) (x1 : Vec F S1024x1024 .f32) (xs : Vec F S128x1024 .f32) :
    sout0_C_0 c i a2 h2 a3 h3 a4 h4 a5 h5 hc0 hc1 x0 x1 xs = k0_pay2 x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero origin]
  simp only [View.readAt_eq_ld, h2.read_unread, h3.read_unread, h5.read_unread, View.ld_unit_zero (S := S128x1024) origin, View.ld_unit_zero (S := S1024x1024) origin]

/-- and the output block is the accumulator read back after that last addition. -/
theorem out_last (c : Dev nD) (i : grid0.Coords) (a2 : Memref sig .tc .vmem S128x1024 .f32) (h2 : a2.IsWhole)
    (a3 : Memref sig .tc .vmem S1024x1024 .f32) (h3 : a3.IsWhole) (a4 : Memref sig .tc .vmem S128x1024 .f32) (h4 : a4.IsWhole)
    (a5 : Memref sig .tc .vmem S128x1024 .f32) (h5 : a5.IsWhole) (hc0 : ¬cond0_0 i) (hc1 : cond0_1 i)
    (x0 : Vec F S128x1024 .f32) (x1 : Vec F S1024x1024 .f32) (xs : Vec F S128x1024 .f32) :
    out0_C_2 c i a2 h2 a3 h3 a4 h4 a5 h5 hc0 hc1 x0 x1 xs = k0_pay2 x0 x1 xs := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero origin, View.readCov_unit_zero (S := S128x1024) _ origin]
  simp only [View.readAt_eq_ld, h2.read_unread, h3.read_unread, h5.read_unread, View.ld_unit_zero (S := S128x1024) origin, View.ld_unit_zero (S := S1024x1024) origin]

end Cert.KernelIdeal.Acc
end
-- ==== Proof.TileValue.lean ====
/-
  The accumulation step read at an entry, over the extended reals.

  At the exact reading a change of float format is the identity and a matrix product into a zero accumulator is
  the plain sum of products over the contracted axis.  So entry (p, q) of "accumulator + tile product" is the
  accumulator's entry plus the 1024-term inner product of row p of the table tile with column q of the one-hot
  tile; and the block the first point stores is zero at every entry.
-/
import proofs.«141715_j66949950210384_1_alg».proof.Proof.Gen.KernelIdeal.Skeleton
import Idealize.ShloMosaic.Lib.Pipeline.Value
import Idealize.ShloMosaic.Lib.ValueIdx
import Idealize.ShloMosaic.PureOps.Ideal.Laws

noncomputable section
open Idealize.ShloMosaic Idealize.ShloMosaic.TcCoe Idealize.SL.Sem Idealize.ShloMosaic.ValueIdx

namespace Cert.KernelIdeal.Acc
open Cert.KernelIdeal Cert.KernelIdeal.Gen

/-- The product's operand indices, coordinate by coordinate: at output entry i and contraction position q the
    left operand is read at (i 0, q) and the right operand at (q, i 1). -/
theorem lhs_tile_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem lhs_tile_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem rhs_tile_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem rhs_tile_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- One tile's product into a zero accumulator, entry (p, q): the 1024-term inner product of row p and column q. -/
theorem tile_product (x : FVec Ideal S128x1024 .bf16) (y : FVec Ideal S1024x1024 .bf16) (p : Fin 128) (q : Fin 1024) :
    matmul dot_S128x1024_S1024x1024_S128x1024_1_0_0_1_n_n none x y (constant (F := Ideal) S128x1024 .f32 0x00000000#32) (ix2 p q)
      = ∑ kk : Fin 1024, x (ix2 p kk) * y (ix2 kk q) := by
  show FloatOps.matmul _ _ _ _ _ _ = _
  rw [Ideal.matmul_constant_zero_apply, ← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 p q) ((contrEquiv1 dot_S128x1024_S1024x1024_S128x1024_1_0_0_1_n_n 1024 rfl rfl).symm k) = ix2 p k := funext fun a => Fin.ext (by
    match a with
    | ⟨0, _⟩ => exact lhs_tile_0 _ _
    | ⟨1, _⟩ => exact (lhs_tile_1 _ _).trans hk)
  have er : dot_S128x1024_S1024x1024_S128x1024_1_0_0_1_n_n.rhsIdx (ix2 p q) ((contrEquiv1 dot_S128x1024_S1024x1024_S128x1024_1_0_0_1_n_n 1024 rfl rfl).symm k) = ix2 k q := funext fun a => Fin.ext (by
    match a with
    | ⟨0, _⟩ => exact (rhs_tile_0 _ _).trans hk
    | ⟨1, _⟩ => exact rhs_tile_1 _ _)
  rw [el, er]

/-- The accumulation step at entry (p, q): what was there plus this tile's 1024-term inner product. -/
theorem step_apply (v3 : Vec Ideal S128x1024 .f32) (v6 : Vec Ideal S1024x1024 .f32) (v9 : Vec Ideal S128x1024 .f32)
    (p : Fin 128) (q : Fin 1024) :
    k0_pay2 (F := Ideal) v3 v6 v9 (ix2 p q) = v9 (ix2 p q) + ∑ kk : Fin 1024, v3 (ix2 p kk) * v6 (ix2 kk q) := by
  unfold k0_pay2
  simp only [shapeCast_self]
  rw [addf_apply, tile_product]
  rfl

/-- The reset block is zero everywhere. -/
theorem reset_apply (j : S128x1024.Idx) : k0_pay1 (F := Ideal) j = 0 := by
  unfold k0_pay1
  simp only [shapeCast_self]
  show Ideal.ofBits .f32 0x00000000#32 = 0
  exact Ideal.ofBits_zero_f32

end Cert.KernelIdeal.Acc
end
-- ==== Proof.LibBlockSum.lean ====
/-
  Two facts about finite sums in a commutative monoid, used to compare an inner product accumulated block by
  block with the same inner product taken in one pass.  Neither needs the summands to be finite numbers:
  only that addition is associative and commutative (as it is on the extended reals).
-/
import Mathlib.Algebra.BigOperators.Fin
import Mathlib.Algebra.BigOperators.Intervals
import Mathlib.Logic.Equiv.Fin.Basic

namespace Cert.BlockSum

open Finset

/-- A sum over `n = nb * b` indices is the sum over the `nb` blocks of the sums over each block's `b` indices;
    index `kk` of block `kb` is `kb * b + kk`. -/
theorem sum_blocks {M : Type*} [AddCommMonoid M] {n : ℕ} (nb b : ℕ) (h : n = nb * b) (f : Fin n → M) :
    ∑ k : Fin n, f k
      = ∑ kb : Fin nb, ∑ kk : Fin b, f ⟨kb.val * b + kk.val, by
          subst h
          calc kb.val * b + kk.val < kb.val * b + b := Nat.add_lt_add_left kk.isLt _
            _ = (kb.val + 1) * b := (Nat.succ_mul _ _).symm
            _ ≤ nb * b := Nat.mul_le_mul_right _ kb.isLt⟩ := by
  subst h
  rw [← Fintype.sum_prod_type', ← (finProdFinEquiv (m := nb) (n := b)).sum_comp]
  refine Fintype.sum_congr _ _ fun p => ?_
  congr 1
  apply Fin.ext
  show p.2.val + b * p.1.val = p.1.val * b + p.2.val
  rw [Nat.mul_comm, Nat.add_comm]

/-- A running total that starts at the first term added to zero and then adds one term per step is, after step
    `k`, the sum of the terms `0 … k`. -/
theorem running_total {M : Type*} [AddCommMonoid M] (P a : ℕ → M) (h0 : a 0 = 0 + P 0)
    (hs : ∀ k, a (k + 1) = a k + P (k + 1)) (k : ℕ) : a k = ∑ i ∈ range (k + 1), P i := by
  induction k with
  | zero => rw [h0, zero_add, sum_range_one]
  | succ k ih => rw [hs, ih, sum_range_succ (fun i => P i) (k + 1)]

/-- The same total over all `nb` blocks, as a sum over `Fin nb`. -/
theorem running_total_last {M : Type*} [AddCommMonoid M] (nb : ℕ) (P a : ℕ → M) (h0 : a 0 = 0 + P 0)
    (hs : ∀ k, a (k + 1) = a k + P (k + 1)) : a nb = ∑ i : Fin (nb + 1), P i.val := by
  rw [running_total P a h0 hs nb, Fin.sum_univ_eq_sum_range (fun i => P i) (nb + 1)]

end Cert.BlockSum
-- ==== Proof.GemmSum.lean ====
/-
  The arithmetic of an embedding lookup written as a matrix product, over the extended reals.

  The table `A` has 50000 columns and the one-hot matrix `B` has 50000 rows; entry (d, n) of the product is
  `∑ k < 50000, A d k * B k n`.  The tiled computation first extends both factors by 176 zero columns / rows to
  the contraction length 50176 = 49 * 1024, then adds up 49 partial products of 1024 terms each, one per tile of
  the contraction axis, starting from zero.  The added terms are `0 * 0 = 0`, and a finite sum in a commutative
  monoid may be regrouped at will, so both computations give the same extended real: no finiteness is used.
-/
import Mathlib.Data.EReal.Operations
import Mathlib.Algebra.BigOperators.Intervals
import Mathlib.Algebra.BigOperators.Fin
import proofs.«141715_j66949950210384_1_alg».proof.Proof.LibBlockSum

namespace Cert.EmbedGemm

open Finset

/-- A family of `n` extended reals continued by zeros: entry `k` for `k < n`, zero from `n` on. -/
noncomputable def padded (n : ℕ) (f : Fin n → EReal) (k : ℕ) : EReal := if h : k < n then f ⟨k, h⟩ else 0

theorem padded_of_lt {n : ℕ} (f : Fin n → EReal) {k : ℕ} (h : k < n) : padded n f k = f ⟨k, h⟩ := dif_pos h

theorem padded_of_ge {n : ℕ} (f : Fin n → EReal) {k : ℕ} (h : n ≤ k) : padded n f k = 0 := dif_neg (Nat.not_lt.2 h)

/-- The inner product of two zero-continued families over `n + e` positions is the inner product of the
    families themselves: the `e` extra products are `0 * 0`. -/
theorem sum_padded (n e : ℕ) (a b : Fin n → EReal) :
    ∑ k ∈ range (n + e), padded n a k * padded n b k = ∑ k : Fin n, a k * b k := by
  rw [sum_range_add, ← Fin.sum_univ_eq_sum_range (fun k => padded n a k * padded n b k) n]
  have tail : ∑ x ∈ range e, padded n a (n + x) * padded n b (n + x) = 0 :=
    sum_eq_zero fun x _ => by rw [padded_of_ge a (Nat.le_add_right n x), zero_mul]
  rw [tail, add_zero]
  exact Fintype.sum_congr _ _ fun k => by rw [padded_of_lt a k.isLt, padded_of_lt b k.isLt]

/-- A sum over `nb * b` consecutive positions, tile by tile: position `kk` of tile `i` is `i * b + kk`. -/
theorem sum_range_tiles (nb b : ℕ) (f : ℕ → EReal) :
    ∑ k ∈ range (nb * b), f k = ∑ i ∈ range nb, ∑ kk : Fin b, f (i * b + kk.val) := by
  rw [← Fin.sum_univ_eq_sum_range f (nb * b), Cert.BlockSum.sum_blocks nb b rfl (fun k : Fin (nb * b) => f k.val),
    ← Fin.sum_univ_eq_sum_range (fun i => ∑ kk : Fin b, f (i * b + kk.val)) nb]

/-- Tile `i`'s contribution: the 1024 products at positions `i * 1024 … i * 1024 + 1023` of the zero-continued
    families. -/
noncomputable def tileTerm (a b : Fin 50000 → EReal) (i : ℕ) : EReal :=
  ∑ kk : Fin 1024, padded 50000 a (i * 1024 + kk.val) * padded 50000 b (i * 1024 + kk.val)

/-- The running sum after `s` tiles. -/
noncomputable def partialSum (a b : Fin 50000 → EReal) (s : ℕ) : EReal := ∑ i ∈ range s, tileTerm a b i

/-- After the first tile: zero plus its contribution. -/
theorem partialSum_one (a b : Fin 50000 → EReal) : partialSum a b 1 = 0 + tileTerm a b 0 := by
  rw [partialSum, sum_range_one, zero_add]

/-- Each further tile adds its contribution. -/
theorem partialSum_succ (a b : Fin 50000 → EReal) (s : ℕ) : partialSum a b (s + 1) = partialSum a b s + tileTerm a b s :=
  sum_range_succ _ _

/-- The 49 partial products of 1024 terms over the zero-extended factors add up to the full inner product of
    the 50000-term families. -/
theorem tiles_eq_inner (a b : Fin 50000 → EReal) :
    ∑ i ∈ range 49, ∑ kk : Fin 1024, padded 50000 a (i * 1024 + kk.val) * padded 50000 b (i * 1024 + kk.val)
      = ∑ k : Fin 50000, a k * b k := by
  rw [← sum_range_tiles 49 1024 (fun k => padded 50000 a k * padded 50000 b k)]
  exact sum_padded 50000 176 a b

/-- After all 49 tiles the running sum is the inner product. -/
theorem partialSum_all (a b : Fin 50000 → EReal) : partialSum a b 49 = ∑ k : Fin 50000, a k * b k :=
  tiles_eq_inner a b

end Cert.EmbedGemm
-- ==== Proof.EntryArrays.lean ====
/-
  The two arrays the kernel region reads, as it finds them, over the extended reals.

  Before the region the table [128, 50000] gets 176 extra columns and the one-hot matrix [50000, 2048] gets 176
  extra rows, all holding the pad value, which is the integer 0 converted to a float: the real number zero.  So
  row p of the extended table is row p of the table continued by zeros, and column j of the extended one-hot
  matrix is column j of the one-hot matrix continued by zeros.
-/
import proofs.«141715_j66949950210384_1_alg».proof.Proof.Gen.KernelIdeal.Frame
import proofs.«141715_j66949950210384_1_alg».proof.Proof.GemmSum
import Idealize.ShloMosaic.Lib.Pipeline.Value
import Idealize.ShloMosaic.Lib.ValueIdx
import Idealize.ShloMosaic.Lib.KernelVsHost
import Idealize.ShloMosaic.Lib.StableHlo.Run
import Idealize.ShloMosaic.PureOps.Ideal.Laws

noncomputable section
open Idealize.ShloMosaic Idealize.ShloMosaic.TcCoe Idealize.SL.Sem Idealize.ShloMosaic.ValueIdx
open Idealize.ShloMosaic.Pipeline (Dat)

namespace Cert.KernelIdeal.Acc
open Cert.KernelIdeal Cert.KernelIdeal.Gen Cert.EmbedGemm

variable (m : (ℓ : Loc nD τ sig) → Buf (Elt Ideal) ℓ)

/-- The table as the region finds it: the argument with 176 zero columns appended. -/
theorem entry_table (c : Dev nD) : (V m c main_v0 : Vec Ideal S128x50176 .f32)
    = pad S128x50176 ![0, 0] ![0, 176] ![0, 0] (m ((c : Thread nD τ).loc main_arg1)) (sitofp (F := Ideal) .f32 (constantI S_ 32 0#32)) pads_S128x50000_S128x50176_000_01760 h_S_ := by
  dsimp only [V, V0]
  simp only [hostOps0, hostOps0_1, hostOps0_2, hostOps0_3, List.flatten_cons, List.flatten_nil, List.append_nil, List.cons_append, List.nil_append]
  after_results
  rfl

/-- The one-hot matrix as the region finds it: the argument with 176 zero rows appended. -/
theorem entry_onehot (c : Dev nD) : (V m c main_v1 : Vec Ideal S50176x2048 .f32)
    = pad S50176x2048 ![0, 0] ![176, 0] ![0, 0] (m ((c : Thread nD τ).loc main_arg0)) (sitofp (F := Ideal) .f32 (constantI S_ 32 0#32)) pads_S50000x2048_S50176x2048_01760_000 h_S_ := by
  dsimp only [V, V0]
  simp only [hostOps0, hostOps0_1, hostOps0_2, hostOps0_3, List.flatten_cons, List.flatten_nil, List.append_nil, List.cons_append, List.nil_append]
  after_results
  rfl

/-- The pad value, the integer zero converted, is the real zero. -/
theorem pad_value (j : S_.Idx) : sitofp (F := Ideal) .f32 (constantI S_ 32 0#32) j = 0 := by
  show (((0#32 : BitVec 32).toInt : ℝ) : EReal) = 0
  simp

/-- Row `p` of the table argument, and column `j` of the one-hot argument (zero past the last column). -/
def tableRow (c : Dev nD) (p : Fin 128) : Fin 50000 → EReal := fun k => m ((c : Thread nD τ).loc main_arg1) (ix2 p k)
def onehotCol (c : Dev nD) (j : ℕ) : Fin 50000 → EReal := fun k =>
  if h : j < 2048 then m ((c : Thread nD τ).loc main_arg0) (ix2 k ⟨j, h⟩) else 0

/-- Entry (p, k) of the extended table is position k of table row p continued by zeros. -/
theorem table_at (c : Dev nD) (p : Fin 128) (k : Fin 50176) :
    (V m c main_v0 : Vec Ideal S128x50176 .f32) (ix2 p k) = padded 50000 (tableRow m c p) k.val := by
  rw [entry_table]
  by_cases h : k.val < 50000
  · rw [padded_of_lt _ h]
    exact pad_apply_of_inside _ _ _ _ _ _ _ (ix2 p k) (ix2 p ⟨k.val, h⟩) (fun a => by
      match a with
      | ⟨0, _⟩ => show p.val = 0 + p.val * (0 + 1); omega
      | ⟨1, _⟩ => show k.val = 0 + k.val * (0 + 1); omega)
  · rw [padded_of_ge _ (Nat.not_lt.1 h)]
    refine (pad_apply_of_not_inside _ _ _ _ _ _ _ (ix2 p k) (1 : Fin 2) (fun hin => h ?_)).trans (pad_value _)
    have h3 : (k.val - 0) / (0 + 1) < 50000 := hin.2.2
    omega

/-- Entry (k, j) of the extended one-hot matrix is position k of one-hot column j continued by zeros. -/
theorem onehot_at (c : Dev nD) (k : Fin 50176) (j : Fin 2048) :
    (V m c main_v1 : Vec Ideal S50176x2048 .f32) (ix2 k j) = padded 50000 (onehotCol m c j.val) k.val := by
  rw [entry_onehot]
  by_cases h : k.val < 50000
  · rw [padded_of_lt _ h]
    refine (pad_apply_of_inside _ _ _ _ _ _ _ (ix2 k j) (ix2 ⟨k.val, h⟩ j) (fun a => by
      match a with
      | ⟨0, _⟩ => show k.val = 0 + k.val * (0 + 1); omega
      | ⟨1, _⟩ => show j.val = 0 + j.val * (0 + 1); omega)).trans ?_
    unfold onehotCol
    rw [dif_pos j.isLt]
  · rw [padded_of_ge _ (Nat.not_lt.1 h)]
    refine (pad_apply_of_not_inside _ _ _ _ _ _ _ (ix2 k j) (0 : Fin 2) (fun hin => h ?_)).trans (pad_value _)
    have h3 : (k.val - 0) / (0 + 1) < 50000 := hin.2.2
    omega

end Cert.KernelIdeal.Acc
end
-- ==== Proof.RunningSum.lean ====
/-
  The accumulator across the grid is a running sum of tile contributions.

  The grid has 2 * 49 points, point n standing for column block n / 49 and contraction tile n % 49.  At point n
  the table window holds columns (n % 49) * 1024 … + 1023 of the zero-extended table and the one-hot window holds
  the same rows, and columns (n / 49) * 1024 … + 1023, of the zero-extended one-hot matrix.  By induction on n
  (never by listing the 98 points) the accumulator's entry (p, q) after point n is the sum of the first
  n % 49 + 1 tile contributions to the inner product of table row p with one-hot column (n / 49) * 1024 + q; the
  first point of a column block restarts it from zero.  At the last point of a column block the output block is a
  copy of the accumulator.
-/
import proofs.«141715_j66949950210384_1_alg».proof.Proof.TileStep
import proofs.«141715_j66949950210384_1_alg».proof.Proof.TileValue
import proofs.«141715_j66949950210384_1_alg».proof.Proof.EntryArrays

noncomputable section
open Idealize.ShloMosaic Idealize.ShloMosaic.TcCoe Idealize.SL.Sem Idealize.ShloMosaic.ValueIdx
open Idealize.ShloMosaic.Pipeline (Dat)

namespace Cert.KernelIdeal.Acc
open Cert.KernelIdeal Cert.KernelIdeal.Gen Cert.EmbedGemm

variable (m : (ℓ : Loc nD τ sig) → Buf (Elt Ideal) ℓ) (ρ : Dev nD → PrngReg)

/-- The windows' block indices at point t, decided once over the grid. -/
theorem idx_facts : ∀ t : Fin cfg0.N, win0_0.index t (0 : Fin 2) = 0 ∧ win0_0.index t (1 : Fin 2) = t.val % 49
    ∧ win0_1.index t (0 : Fin 2) = t.val % 49 ∧ win0_1.index t (1 : Fin 2) = t.val / 49
    ∧ win0_2.index t (0 : Fin 2) = 0 ∧ win0_2.index t (1 : Fin 2) = t.val / 49 :=
  (by decide +kernel : ∀ t : Fin grid0.N, _)

theorem lt_points (t : Fin cfg0.N) : t.val < 98 := lt_of_lt_of_eq t.isLt (show cfg0.N = 98 from N_0)

/-- The two input tiles at point t, as arrays of their literal shapes. -/
abbrev tableTile (c : Dev nD) (t : Fin cfg0.N) : Vec Ideal S128x1024 .f32 := iblk m c 0 t
abbrev onehotTile (c : Dev nD) (t : Fin cfg0.N) : Vec Ideal S1024x1024 .f32 := iblk m c 1 t

/-- Entry (p, kk) of the table tile is position (t % 49) * 1024 + kk of table row p continued by zeros. -/
theorem tableTile_at (c : Dev nD) (t : Fin cfg0.N) (p : Fin 128) (kk : Fin 1024) :
    tableTile m c t (ix2 p kk) = padded 50000 (tableRow m c p) (t.val % 49 * 1024 + kk.val) := by
  obtain ⟨e0, e1, -⟩ := idx_facts t
  have hN := lt_points t
  have hk : t.val % 49 * 1024 + kk.val < 50176 := by omega
  rw [← table_at m c p ⟨_, hk⟩]
  show V m c main_v0 (((cfg0.win 0).blk t).view.emb (ix2 p kk)) = V m c main_v0 (ix2 p ⟨_, hk⟩)
  congr 1
  funext a; apply Fin.ext
  match a with
  | ⟨0, _⟩ => show win0_0.index t (0 : Fin 2) * 128 + 1 * p.val = p.val; omega
  | ⟨1, _⟩ => show win0_0.index t (1 : Fin 2) * 1024 + 1 * kk.val = t.val % 49 * 1024 + kk.val; omega

/-- Entry (kk, q) of the one-hot tile is position (t % 49) * 1024 + kk of one-hot column (t / 49) * 1024 + q
    continued by zeros. -/
theorem onehotTile_at (c : Dev nD) (t : Fin cfg0.N) (kk : Fin 1024) (q : Fin 1024) :
    onehotTile m c t (ix2 kk q) = padded 50000 (onehotCol m c (t.val / 49 * 1024 + q.val)) (t.val % 49 * 1024 + kk.val) := by
  obtain ⟨-, -, e2, e3, -⟩ := idx_facts t
  have hN := lt_points t
  have hk : t.val % 49 * 1024 + kk.val < 50176 := by omega
  have hj : t.val / 49 * 1024 + q.val < 2048 := by omega
  rw [← onehot_at m c ⟨_, hk⟩ ⟨_, hj⟩]
  show V m c main_v1 (((cfg0.win 1).blk t).view.emb (ix2 kk q)) = V m c main_v1 (ix2 ⟨_, hk⟩ ⟨_, hj⟩)
  congr 1
  funext a; apply Fin.ext
  match a with
  | ⟨0, _⟩ => show win0_1.index t (0 : Fin 2) * 1024 + 1 * kk.val = t.val % 49 * 1024 + kk.val; omega
  | ⟨1, _⟩ => show win0_1.index t (1 : Fin 2) * 1024 + 1 * q.val = t.val / 49 * 1024 + q.val; omega

/-- This point's tile product at entry (p, q) is the tile's contribution to the inner product of table row p with
    one-hot column (t / 49) * 1024 + q. -/
theorem tile_at (c : Dev nD) (t : Fin cfg0.N) (p : Fin 128) (q : Fin 1024) :
    ∑ kk : Fin 1024, tableTile m c t (ix2 p kk) * onehotTile m c t (ix2 kk q)
      = tileTerm (tableRow m c p) (onehotCol m c (t.val / 49 * 1024 + q.val)) (t.val % 49) :=
  Finset.sum_congr rfl fun kk _ => by rw [tableTile_at, onehotTile_at]

/-- At the first point of a column block the accumulator ends at the running sum after one tile. -/
theorem acc_at_first (c : Dev nD) (t : Fin cfg0.N) (h0 : t.val % 49 = 0) (p : Fin 128) (q : Fin 1024) :
    (outsAt0 m c t.val t.isLt).2 (ix2 p q)
      = partialSum (tableRow m c p) (onehotCol m c (t.val / 49 * 1024 + q.val)) 1 := by
  have h1 : ¬t.val % 49 = 48 := by omega
  rw [outsAt0_A m c t h0 h1]
  dsimp only
  refine (congrFun (acc_first (F := Ideal) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (tableTile m c t) (onehotTile m c t)) (ix2 p q)).trans ?_
  refine (step_apply (tableTile m c t) (onehotTile m c t) (k0_pay1 (F := Ideal)) p q).trans ?_
  rw [reset_apply, tile_at, partialSum_one, h0]

/-- At any other point it ends at what the point before left plus this tile's contribution. -/
theorem acc_at_step (c : Dev nD) (t : Fin cfg0.N) (h0 : ¬t.val % 49 = 0) (p : Fin 128) (q : Fin 1024) :
    (outsAt0 m c t.val t.isLt).2 (ix2 p q)
      = (outsAt0 m c (t.val - 1) (Nat.lt_of_le_of_lt (Nat.sub_le _ _) t.isLt)).2 (ix2 p q)
        + tileTerm (tableRow m c p) (onehotCol m c (t.val / 49 * 1024 + q.val)) (t.val % 49) := by
  by_cases h1 : t.val % 49 = 48
  · rw [outsAt0_C m c t h0 h1]
    dsimp only
    refine (congrFun (acc_last (F := Ideal) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (tableTile m c t) (onehotTile m c t)
      (outsAt0 m c (t.val - 1) (Nat.lt_of_le_of_lt (Nat.sub_le _ _) t.isLt)).2) (ix2 p q)).trans ?_
    refine (step_apply (tableTile m c t) (onehotTile m c t) _ p q).trans ?_
    rw [tile_at]
  · rw [outsAt0_B m c t h0 h1]
    dsimp only
    refine (congrFun (acc_middle (F := Ideal) c (grid0.coords t) (ms0_0 t) (hs0_0 t) (ms0_1 t) (hs0_1 t) (ms0_2 t) (hs0_2 t) scM0_0
      (Memref.isWhole_whole _) (fun h => h0 ((hcond0_0 t).mp h)) (fun h => h1 ((hcond0_1 t).mp h)) (tableTile m c t) (onehotTile m c t)
      (outsAt0 m c (t.val - 1) (Nat.lt_of_le_of_lt (Nat.sub_le _ _) t.isLt)).2) (ix2 p q)).trans ?_
    refine (step_apply (tableTile m c t) (onehotTile m c t) _ p q).trans ?_
    rw [tile_at]

/-- THE RUNNING SUM.  After point n = 49 * (column block) + k the accumulator's entry (p, q) is the sum of the
    first k + 1 tile contributions to the inner product of table row p with one-hot column (n / 49) * 1024 + q. -/
theorem acc_at (c : Dev nD) : ∀ (n : ℕ) (h : n < cfg0.N) (p : Fin 128) (q : Fin 1024),
    (outsAt0 m c n h).2 (ix2 p q)
      = partialSum (tableRow m c p) (onehotCol m c (n / 49 * 1024 + q.val)) (n % 49 + 1) := by
  intro n
  induction n with
  | zero => intro h p q; exact acc_at_first m c ⟨0, h⟩ rfl p q
  | succ n ih =>
    intro h p q
    by_cases h0 : (n + 1) % 49 = 0
    · rw [h0]; exact acc_at_first m c ⟨n + 1, h⟩ h0 p q
    · refine (acc_at_step m c ⟨n + 1, h⟩ h0 p q).trans ?_
      show (outsAt0 m c n _).2 (ix2 p q) + _ = _
      rw [ih (Nat.lt_of_succ_lt h) p q]
      have e1 : (n + 1) / 49 = n / 49 := by omega
      have e2 : (n + 1) % 49 = n % 49 + 1 := by omega
      show _ + tileTerm _ (onehotCol m c ((n + 1) / 49 * 1024 + q.val)) ((n + 1) % 49) = _
      rw [e1, e2]
      exact (partialSum_succ _ _ _).symm

/-- At the last point of a column block the output block is the accumulator. -/
theorem out_eq_acc (c : Dev nD) (t : Fin cfg0.N) (h1 : t.val % 49 = 48) :
    (outsAt0 m c t.val t.isLt).1 = (outsAt0 m c t.val t.isLt).2 := by
  have h0 : ¬t.val % 49 = 0 := by omega
  rw [outsAt0_C m c t h0 h1]
  dsimp only
  exact (out_last (F := Ideal) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (tableTile m c t) (onehotTile m c t)
      (outsAt0 m c (t.val - 1) (Nat.lt_of_le_of_lt (Nat.sub_le _ _) t.isLt)).2).trans
    (acc_last (F := Ideal) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (tableTile m c t) (onehotTile m c t)
      (outsAt0 m c (t.val - 1) (Nat.lt_of_le_of_lt (Nat.sub_le _ _) t.isLt)).2).symm

end Cert.KernelIdeal.Acc
end
-- ==== Proof.Product.lean ====
/-
  From the accumulator to the program's result, over the extended reals.

  At the last point of column block b (point 49 b + 48) the accumulator holds all 49 tile contributions, which is
  the full inner product (the 176 extra positions contribute 0 * 0), and the output block written back there is
  block (0, b) of the [128, 2048] product array; the two column blocks cover the array, so after the region it
  holds entry (d, j) = ∑ k < 50000, table d k * onehot k j.  The transpose that follows the region moves entry
  (d, j) to (j, d).
-/
import proofs.«141715_j66949950210384_1_alg».proof.Proof.RunningSum

set_option maxRecDepth 65536

noncomputable section
open Idealize.ShloMosaic Idealize.ShloMosaic.TcCoe Idealize.SL.Sem Idealize.ShloMosaic.ValueIdx
open Idealize.ShloMosaic.Pipeline (Dat)

namespace Cert.KernelIdeal.Acc
open Cert.KernelIdeal Cert.KernelIdeal.Gen Cert.EmbedGemm

variable (m : (ℓ : Loc nD τ sig) → Buf (Elt Ideal) ℓ) (ρ : Dev nD → PrngReg)

/-- The region's result array [128, 2048]: entry (d, j) is the inner product of table row d with one-hot column j. -/
def product (c : Dev nD) : Vec Ideal S128x2048 .f32 :=
  fun i => (∑ k : Fin 50000, tableRow m c (i 0) k * onehotCol m c (i 1).val k : EReal)

/-- The accumulator at the end of column block t / 49, entry y, is the product's entry (y 0, (t / 49) * 1024 + y 1). -/
theorem acc_is_product (c : Dev nD) (t : Fin cfg0.N) (h48 : t.val % 49 = 48) (y : S128x1024.Idx) (i : S128x2048.Idx)
    (e0 : (i 0).val = (y 0).val) (e1 : (i 1).val = t.val / 49 * 1024 + (y 1).val) :
    (outsAt0 m c t.val t.isLt).2 y = product m c i := by
  obtain ⟨p, q, rfl⟩ : ∃ (p : Fin 128) (q : Fin 1024), y = ix2 p q := ⟨y 0, y 1, eq_ix2 y⟩
  rw [acc_at m c t.val t.isLt p q, h48, partialSum_all]
  unfold product
  rw [show i 0 = p from Fin.ext e0, show (i 1).val = t.val / 49 * 1024 + q.val from e1]

/-- What the last point of a column block writes back is that block of the product array. -/
theorem flushed_eq (c : Dev nD) (t : Fin cfg0.N) (hf : (cfg0.win 2).flush t = true) :
    (dats m 0 c).flushed 2 t = ((cfg0.win 2).blk t).view.read (Elt Ideal) (product m c) := by
  have h48 : t.val % 49 = 48 := (flush0_2 t).mp hf
  obtain ⟨-, -, -, -, e4, e5⟩ := idx_facts t
  show (cfg0.win 2).cut (grid0.coords t) ((dats m 0 c).after 2 t) = _
  rw [after0_2, out_eq_acc m c t h48]
  funext j
  show _ = product m c (((cfg0.win 2).blk t).view.emb j)
  refine acc_is_product m c t h48 ((cfg0.win 2).xinj (grid0.coords t) j) _ ?_ ?_
  · show win0_2.index t (0 : Fin 2) * 128 + 1 * (j 0).val = (j 0).val; omega
  · show win0_2.index t (1 : Fin 2) * 1024 + 1 * (j 1).val = t.val / 49 * 1024 + (j 1).val; omega

/-- An index of the product array is in point t's block iff each coordinate is in the block's range. -/
theorem mem_blk (t : Fin cfg0.N) (i : S128x2048.Idx) :
    i ∈ ((cfg0.win 2).blk t).view.set ↔ ∀ a : Fin 2, win0_2.index t a * S128x1024.size a ≤ (i a).val ∧ (i a).val < win0_2.index t a * S128x1024.size a + S128x1024.size a := by
  show i ∈ ((View.whole main_v2).slice (win0_2.rect t)).set ↔ _
  rw [View.set_slice_whole, Rect.mem_set_unit]
  exact Iff.rfl

/-- After the region the array is the product: index (d, j) is covered by the last point of column block j / 1024. -/
theorem region_result (c : Dev nD) : (dats m 0 c).arrAt 2 cfg0.N = product m c :=
  (dats m 0 c).arrAt_eq_of_cover 2 (product m c) (flushed_eq m c) fun i => by
    have hi1 : (i 1).val < 2048 := (i 1).isLt
    have hi0 : (i 0).val < 128 := (i 0).isLt
    have hN : grid0.N = 98 := N_0
    have hN' : cfg0.N = 98 := N_0
    refine ⟨⟨(i 1).val / 1024 * 49 + 48, by omega⟩, (flush0_2 _).mpr (by show ((i 1).val / 1024 * 49 + 48) % 49 = 48; omega), ?_⟩
    rw [mem_blk]
    obtain ⟨-, -, -, -, e4, e5⟩ := idx_facts ⟨(i 1).val / 1024 * 49 + 48, by omega⟩
    have e5' : win0_2.index ⟨(i 1).val / 1024 * 49 + 48, by omega⟩ (1 : Fin 2) = ((i 1).val / 1024 * 49 + 48) / 49 := e5
    intro a
    match a with
    | ⟨0, _⟩ => show win0_2.index _ (0 : Fin 2) * 128 ≤ (i 0).val ∧ (i 0).val < win0_2.index _ (0 : Fin 2) * 128 + 128; omega
    | ⟨1, _⟩ => show win0_2.index _ (1 : Fin 2) * 1024 ≤ (i 1).val ∧ (i 1).val < win0_2.index _ (1 : Fin 2) * 1024 + 1024; omega

/-- Entry (j, d) of the result comes from entry (d, j) of the product. -/
abbrev swapped (i : S2048x128.Idx) : S128x2048.Idx := fun a => match a with
  | ⟨0, _⟩ => ⟨(i 1).val, (i 1).isLt⟩
  | ⟨1, _⟩ => ⟨(i 0).val, (i 0).isLt⟩

/-- The program's result [2048, 128]: entry (j, d) is the inner product of table row d with one-hot column j. -/
def result (c : Dev nD) : Vec Ideal S2048x128 .f32 :=
  fun i => product m c (swapped i)

/-- The transpose after the region turns the product into the result. -/
theorem tail_result (c : Dev nD) :
    Pipeline.afterTail₀ cfgs (dats m) 0 (V0 m) [hostOps1] c main_v3 = result m c := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = product m c := (Pipeline.withArrays_arr spec0 launch0.win.arr_inj c _ _ 2).trans (region_result m c)
  rw [e]
  funext i
  exact transpose_apply [1, 0] (product m c) transposes_S128x2048_S2048x128_1_0 i (swapped i) (fun b => match b with
    | ⟨0, _⟩ => rfl
    | ⟨1, _⟩ => rfl)

/-- The whole run, read: the result array holds `result`, the arguments are unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Acc
end
-- ==== Proof.RefValue.lean ====
/-
  The reference, read at an entry over the extended reals: a matrix product followed by a transpose, so entry
  (j, d) of its result is `∑ k < 50000, table d k * onehot k j` — the same inner product the kernel accumulates
  tile by tile.
-/
import proofs.«141715_j66949950210384_1_alg».proof.Proof.Gen.ReferenceIdeal.Read
import proofs.«141715_j66949950210384_1_alg».proof.Proof.Product

noncomputable section
open Idealize.ShloMosaic Idealize.ShloMosaic.TcCoe Idealize.SL.Sem Idealize.ShloMosaic.ValueIdx

namespace Cert.ReferenceIdeal.RefValue
open Cert.ReferenceIdeal Cert.ReferenceIdeal.Read

/-- The kernel's result, as a function of the two argument arrays, is the reference's. -/
theorem result_eq (m : (ℓ : Loc Cert.KernelIdeal.nD Cert.KernelIdeal.τ Cert.KernelIdeal.sig) → Buf (Elt Ideal) ℓ) (c : Dev Cert.KernelIdeal.nD) :
    val_main_v1 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Acc.result m c := by
  funext i
  rw [val_main_v1_apply, val_main_v0_apply]
  unfold Cert.KernelIdeal.Acc.result Cert.KernelIdeal.Acc.product
  refine Finset.sum_congr rfl fun k _ => ?_
  unfold Cert.KernelIdeal.Acc.tableRow Cert.KernelIdeal.Acc.onehotCol
  rw [dif_pos (show (Cert.KernelIdeal.Acc.swapped i 1).val < 2048 from (i 0).isLt)]
  congr 1
  · exact congrArg _ (funext fun a => match a with | ⟨0, _⟩ => rfl | ⟨1, _⟩ => rfl)
  · exact congrArg _ (funext fun a => match a with | ⟨0, _⟩ => rfl | ⟨1, _⟩ => rfl)

end Cert.ReferenceIdeal.RefValue
end
-- ==== Proof.lean ====
/-
  An embedding lookup written as a matrix product: `out[j, d] = ∑ k < 50000, table[d, k] * onehot[k, j]`.

  The kernel extends the contraction axis from 50000 to 50176 = 49 * 1024 positions with zeros, walks a grid of
  2 column blocks × 49 contraction tiles, keeps a [128, 1024] accumulator per column block (zeroed at the first
  tile, increased by each tile's [128, 1024] × [1024, 1024] product, copied to the output block at the last tile),
  and transposes the [128, 2048] product at the end.  The reference takes the [128, 50000] × [50000, 2048] product
  in one step and transposes it.

  Over the extended reals the narrowing of the tiles to a shorter float format is the identity, a product into a
  zero accumulator is a plain sum of products, the 176 extra positions contribute 0 * 0 = 0, and a finite sum in a
  commutative monoid may be grouped into 49 consecutive tiles: so the accumulator after the last tile IS the
  reference's inner product, entry by entry.  Nothing here needs the inputs to be finite.

  The three programs' runs (termination, no fault, arguments unchanged) come from the generated frames of the two
  kernel programs and the generated run of the reference; the idealisation rewrote nothing.
-/
import proofs.«141715_j66949950210384_1_alg».proof.Defs
import proofs.«141715_j66949950210384_1_alg».proof.Proof.Gen.Kernel
import proofs.«141715_j66949950210384_1_alg».proof.Proof.Gen.Kernel.Frame
import proofs.«141715_j66949950210384_1_alg».proof.Proof.Gen.KernelIdeal
import proofs.«141715_j66949950210384_1_alg».proof.Proof.Gen.KernelIdeal.Frame
import proofs.«141715_j66949950210384_1_alg».proof.Proof.Gen.ReferenceIdeal
import proofs.«141715_j66949950210384_1_alg».proof.Proof.Gen.ReferenceIdeal.Run
import proofs.«141715_j66949950210384_1_alg».proof.Proof.Gen.Pre_finite_inputs
import proofs.«141715_j66949950210384_1_alg».proof.Proof.Product
import proofs.«141715_j66949950210384_1_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at the same function of the argument arrays: entry (j, d) the inner
    product of table row d with one-hot column j. -/
theorem algebraic : Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, (hagree c).1, (hagree c).2]
  exact Cert.ReferenceIdeal.RefValue.result_eq m c

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
